-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S256x256 : Shape := ⟨2, ![256, 256]⟩
abbrev S256 : Shape := ⟨1, ![256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S262144x256 .f32) (main_arg1 : FVec F S256x256 .f32) (main_arg2 : FVec F S256 .f32) (main_arg3 : FVec F S256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S262144x256 : Shape := ⟨2, ![262144, 256]⟩
abbrev S256x256 : Shape := ⟨2, ![256, 256]⟩
abbrev S256 : Shape := ⟨1, ![256]⟩
abbrev S1x256 : Shape := ⟨2, ![1, 256]⟩
abbrev S2048x256 : Shape := ⟨2, ![2048, 256]⟩

abbrev nBuf : Space → Nat
  | .hbm => 7
  | .vmem => 7
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S1x256, .f32⟩
  | .hbm, ⟨5, _⟩ => ⟨S1x256, .f32⟩
  | .hbm, ⟨6, _⟩ => ⟨S262144x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S1x256, .f32⟩
  | .local _ .vmem, ⟨4, _⟩ => ⟨S1x256, .f32⟩
  | .local _ .vmem, ⟨5, _⟩ => ⟨S2048x256, .f32⟩
  | .local _ .vmem, ⟨6, _⟩ => ⟨S2048x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S262144x256.size a
  hwx0_4 : ∀ i : grid0.Coords, EltTy.bits .f32 = 32 ∨ (Rect.block (s := S262144x256) S2048x256.size (cc0_transform_4 i) (hinb0_4 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x256 : Shape := ⟨2, ![262144, 256]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S262144x256, .f32⟩
  | .hbm, ⟨5, _⟩ => ⟨S262144x256, .i32⟩
  | .hbm, ⟨6, _⟩ => ⟨S256, .i32⟩
  | .hbm, ⟨7, _⟩ => ⟨S256, .i32⟩
  | .hbm, ⟨8, _⟩ => ⟨S1x256, .i32⟩
  | .hbm, ⟨9, _⟩ => ⟨S262144x256, .i32⟩
  | .hbm, ⟨10, _⟩ => ⟨S262144x256, .i32⟩
  | .hbm, ⟨11, _⟩ => ⟨S1x256, .i32⟩
  | .hbm, ⟨12, _⟩ => ⟨S262144x256, .i32⟩
  | .hbm, ⟨13, _⟩ => ⟨S262144x256, .i32⟩
  | .hbm, ⟨14, _⟩ => ⟨S_, .i32⟩
  | .hbm, ⟨15, _⟩ => ⟨S262144x256, .i32⟩
  | .hbm, ⟨16, _⟩ => ⟨S262144x256, .i32⟩
  | .hbm, ⟨17, _⟩ => ⟨S_, .i32⟩
  | .hbm, ⟨18, _⟩ => ⟨S262144x256, .i32⟩
  | .hbm, ⟨19, _⟩ => ⟨S262144x256, .i32⟩
  | .hbm, ⟨20, _⟩ => ⟨S262144x256, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S262144x256, .f32⟩
  | .hbm, ⟨25, _⟩ => ⟨S262144x256, .f32⟩
  | .hbm, ⟨26, _⟩ => ⟨S_, .f32⟩
  | .hbm, ⟨27, _⟩ => ⟨S262144x256, .f32⟩
  | .hbm, ⟨28, _⟩ => ⟨S262144x256, .f32⟩
  | .hbm, ⟨29, _⟩ => ⟨S_, .f32⟩
  | .hbm, ⟨30, _⟩ => ⟨S262144x256, .f32⟩
  | .hbm, ⟨31, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v15 : Ref sig .tc := ⟨.hbm, 28, rfl⟩
abbrev main_call1_cst : Ref sig .tc := ⟨.hbm, 29, rfl⟩
abbrev main_call1_v0 : Ref sig .tc := ⟨.hbm, 30, rfl⟩
abbrev main_v16 : Ref sig .tc := ⟨.hbm, 31, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  dot_S262144x256_S256x256_S262144x256_1_0_0_1_n_n_wf : DotDims.WF S262144x256 S256x256 S262144x256 [1] [0] [0] [1] [] []

variable [Facts₀]

def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf

class Facts : Prop extends Facts₀ where

variable [Facts]
-- ==== Proof.Spec.lean ====
/-
  The function both programs compute, index by index, over the extended reals.

  For a row n of the features and a column o of the weights let p = ∑ₖ feats[n, k] · weight[k, o]. The result at (n, o) is the
  fixed-point requantisation of p by the column's bias and scale: each of p, bias[o] and scale[o] is converted to a signed
  32-bit word; the words are combined as (p + bias) · scale + 128 in wrap-around word arithmetic and shifted right
  arithmetically by 8; the word is converted back to a real, clamped below at -128, above at 127, and last below at 0.

  No law of real arithmetic is used anywhere: the sum over k stays a sum, and every later step is one fixed function of a
  single entry. So the two programs agree on every extended-real input, finite or not.
-/
import Idealize.ShloMosaic.PureOps.Ideal
import Idealize.ShloMosaic.Lib.ValueIdx

noncomputable section

open scoped BigOperators

namespace Cert.Requant

open Idealize.ShloMosaic Idealize.ShloMosaic.ValueIdx

/-- One entry of the epilogue: the product sum `p`, the column's bias `b` and scale `s`, each truncated to a signed word;
    `((p + b) · s + 128) >> 8` on words; back to a real; clamped to [-128, 127] and then to [0, ∞). The float constants
    are kept as their words: the same word stands on both sides and is never evaluated. -/
def lane (p b s : Ideal .f32) : Ideal .f32 :=
  FloatOps.maximumf (F := Ideal)
    (FloatOps.minimumf (F := Ideal) (FloatOps.ofBits (F := Ideal) .f32 0x42FE0000#32)
      (FloatOps.maximumf (F := Ideal) (FloatOps.ofBits (F := Ideal) .f32 0xC3000000#32)
        (FloatOps.sitofp (F := Ideal) .f32
          (IntOp.shrsi .host
            (IntOp.addi
              (IntOp.muli (IntOp.addi (FloatOps.fptosi (F := Ideal) 32 p) (FloatOps.fptosi (F := Ideal) 32 b))
                (FloatOps.fptosi (F := Ideal) 32 s))
              128#32)
            8#32))))
    (FloatOps.ofBits (F := Ideal) .f32 0x00000000#32)

/-- The whole result array as one function of the four argument arrays: at (n, o), the requantised product sum of row n of
    the features with column o of the weights, by bias[o] and scale[o]. -/
def G (feats : FVec Ideal ⟨2, ![262144, 256]⟩ .f32) (weight : FVec Ideal ⟨2, ![256, 256]⟩ .f32)
    (bias scale : FVec Ideal ⟨1, ![256]⟩ .f32) : FVec Ideal ⟨2, ![262144, 256]⟩ .f32 :=
  fun i => lane (∑ k : Fin 256, feats (ix2 (i 0 : Fin 262144) k) * weight (ix2 k (i 1 : Fin 256)))
    (bias (ix1 (i 1 : Fin 256))) (scale (ix1 (i 1 : Fin 256)))

/-- `G` at explicit coordinates. -/
theorem G_apply (feats : FVec Ideal ⟨2, ![262144, 256]⟩ .f32) (weight : FVec Ideal ⟨2, ![256, 256]⟩ .f32)
    (bias scale : FVec Ideal ⟨1, ![256]⟩ .f32) (n : Fin 262144) (o : Fin 256) :
    G feats weight bias scale (ix2 n o)
      = lane (∑ k : Fin 256, feats (ix2 n k) * weight (ix2 k o)) (bias (ix1 o)) (scale (ix1 o)) := rfl

end Cert.Requant

end
-- ==== Proof.RefIsSpec.lean ====
/-
  The reference's result is the specification `Cert.Requant.G` of its four arguments.

  Read one entry (n, o) of the reference's last stage back through its operations. The clamp at 0, the clamp at 127, the
  clamp at -128, the conversion to a real, the shift by 8, the addition of 128, the product with the scale word and the sum
  with the bias word each act on that one entry. The bias and scale words at (n, o) are those of entry o of the two vectors:
  a vector laid out as one row and the row then repeated down the rows reads, at (n, o), entry o. The product of the feature
  matrix with the weights at (n, o) is the sum over k of feats[n, k] · weight[k, o].
-/
import proofs.«170968_j4939212390875_1_alg».proof.Proof.Gen.ReferenceIdeal.Read
import proofs.«170968_j4939212390875_1_alg».proof.Proof.Spec

noncomputable section

open scoped BigOperators

namespace Cert.Requant.Reference

open Cert.ReferenceIdeal Cert.ReferenceIdeal.Read Idealize.ShloMosaic Idealize.ShloMosaic.ValueIdx

/-- Row n of the features at contraction index k. -/
theorem lidx_eq (i : S262144x256.Idx) (k : Fin 256) : lidx_main_v0 i k = ix2 (i 0 : Fin 262144) k :=
  funext fun a => by match a with | ⟨0, _⟩ => rfl | ⟨1, _⟩ => rfl

/-- Column o of the weights at contraction index k. -/
theorem ridx_eq (i : S262144x256.Idx) (k : Fin 256) : ridx_main_v0 i k = ix2 k (i 1 : Fin 256) :=
  funext fun a => by match a with | ⟨0, _⟩ => rfl | ⟨1, _⟩ => rfl

/-- The bias vector, laid out as one row and repeated down the rows, is read at (n, o) at its entry o. -/
theorem bias_idx_eq (i : S262144x256.Idx) : idx_main_v4 (idx_main_v5 i) = ix1 (i 1 : Fin 256) :=
  funext fun a => by match a with | ⟨0, _⟩ => rfl

/-- The same for the scale vector. -/
theorem scale_idx_eq (i : S262144x256.Idx) : idx_main_v7 (idx_main_v8 i) = ix1 (i 1 : Fin 256) :=
  funext fun a => by match a with | ⟨0, _⟩ => rfl

/-- The reference's last stage is `G` of the arguments, entry by entry. -/
theorem ref_eq_G (x0 : (⟨S262144x256, .f32⟩ : BufTy).Contents (Elt Ideal)) (x1 : (⟨S256x256, .f32⟩ : BufTy).Contents (Elt Ideal))
    (x2 x3 : (⟨S256, .f32⟩ : BufTy).Contents (Elt Ideal)) :
    val_main_v16 (F := Ideal) x0 x1 x2 x3 = Cert.Requant.G x0 x1 x2 x3 := by
  funext i
  rw [val_main_v16_apply, val_main_v15_apply, val_main_call1_v0_apply, val_main_call1_cst_apply, val_main_call0_v4_apply,
    val_main_call0_v3_apply, val_main_cst_1_apply, val_main_call0_v2_apply, val_main_call0_v1_apply, val_main_call0_v0_apply,
    val_main_cst_apply, val_main_v14_apply, val_main_v13_apply, val_main_v12_apply, val_main_c_0_apply, val_main_v11_apply,
    val_main_v10_apply, val_main_c_apply, val_main_v9_apply, val_main_v8_apply, val_main_v7_apply, val_main_v3_apply,
    val_main_v6_apply, val_main_v5_apply, val_main_v4_apply, val_main_v2_apply, val_main_v1_apply, val_main_v0_apply,
    bias_idx_eq, scale_idx_eq]
  have hp : (∑ k : Fin 256, x0 (lidx_main_v0 i k) * x1 (ridx_main_v0 i k))
      = ∑ k : Fin 256, x0 (ix2 (i 0 : Fin 262144) k) * x1 (ix2 k (i 1 : Fin 256)) :=
    Finset.sum_congr rfl fun k _ => by rw [lidx_eq, ridx_eq]; rfl
  rw [hp]
  rfl

end Cert.Requant.Reference

end
-- ==== Proof.KernelBlock.lean ====
/-
  One entry of what the kernel's body stores, as the specification's one-entry function.

  At a grid point the body holds a block of 2048 rows of the features, the whole weight matrix, and the bias and the scale as
  one-row matrices. Its stored value at (p, q) is `Cert.Requant.lane` of
    * the sum over k of block[p, k] · weight[k, q]: the matrix product is accumulated into zero, and narrowing the two
      operands to a shorter float format changes nothing on the extended reals;
    * the bias row at (0, q) and the scale row at (0, q): a one-row matrix of words repeated down the rows reads, at (p, q),
      its entry (0, q), and converting to words commutes with reading an entry.
  The arithmetic shift right is the same function of two 32-bit words wherever it is computed.
-/
import proofs.«170968_j4939212390875_1_alg».proof.Proof.Gen.KernelIdeal.Skeleton
import proofs.«170968_j4939212390875_1_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.Requant.Kernel

open Cert.KernelIdeal Cert.KernelIdeal.Gen Idealize.ShloMosaic Idealize.ShloMosaic.ValueIdx

/-! ## The matrix product's operand indices, axis by axis -/

/-- The left operand's row is the output's row. -/
theorem lhs_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl

/-- The left operand's column is the contraction index. -/
theorem lhs_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q

/-- The right operand's row is the contraction index. -/
theorem rhs_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q

/-- The right operand's column is the output's column. -/
theorem rhs_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-! ## The three operations that are not entry by entry -/

/-- The product of a 2048 × 256 block with the 256 × 256 weights, accumulated into zero, at (p, q): the sum over k of
    block[p, k] · weight[k, q]. -/
theorem matmul_at (l : FVec Ideal S2048x256 .bf16) (r : FVec Ideal S256x256 .bf16) (p : Fin 2048) (q : Fin 256) :
    matmul dot_S2048x256_S256x256_S2048x256_1_0_0_1_n_n none l r (constant (F := Ideal) S2048x256 .f32 0x00000000#32) (ix2 p q)
      = ∑ k : Fin 256, l (ix2 p k) * r (ix2 k q) := by
  show FloatOps.matmul dot_S2048x256_S256x256_S2048x256_1_0_0_1_n_n none l r (constant (F := Ideal) S2048x256 .f32 0x00000000#32) (ix2 p q) = _
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 p q) ((ValueIdx.contrEquiv1 dot_S2048x256_S256x256_S2048x256_1_0_0_1_n_n 256 rfl rfl).symm k) = ix2 p k := funext fun a => Fin.ext (by
    match a with
    | ⟨0, _⟩ => exact lhs_0 _ _
    | ⟨1, _⟩ => exact (lhs_1 _ _).trans hk)
  have er : dot_S2048x256_S256x256_S2048x256_1_0_0_1_n_n.rhsIdx (ix2 p q) ((ValueIdx.contrEquiv1 dot_S2048x256_S256x256_S2048x256_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- A one-row matrix of words repeated down 2048 rows reads, at (p, q), its entry (0, q). -/
theorem row_at (x : IVec S1x256 32) (h : S1x256.Broadcasts S2048x256) (p : Fin 2048) (q : Fin 256) :
    broadcastTo S2048x256 x h (ix2 p q) = x (ix2 (0 : Fin 1) q) :=
  broadcastTo_1b_ab_apply x h p q

/-! ## The stored value at an entry -/

/-- The body's stored value at (p, q) is the specification's one-entry function of the block's product sum and of the bias
    and scale rows at (0, q). -/
theorem pay_at (v0 : Vec Ideal S2048x256 .f32) (v2 : Vec Ideal S256x256 .f32) (v6 v9 : Vec Ideal S1x256 .f32)
    (p : Fin 2048) (q : Fin 256) :
    k0_pay1 (F := Ideal) v0 v2 v6 v9 (ix2 p q)
      = Cert.Requant.lane (∑ k : Fin 256, v0 (ix2 p k) * v2 (ix2 k q)) (v6 (ix2 (0 : Fin 1) q)) (v9 (ix2 (0 : Fin 1) q)) := by
  unfold k0_pay1
  dsimp only [maximumf, minimumf, sitofp, shrsi, addi, muli, fptosi, broadcast]
  rw [matmul_at, row_at, row_at, shrsi_unit .vector .host, shapeCast_self, shapeCast_self]
  rfl

end Cert.Requant.Kernel

end
-- ==== Proof.KernelValue.lean ====
/-
  The kernel's result array is the specification `Cert.Requant.G` of its four arguments.

  The grid has 128 points; point t stages rows 2048·t … 2048·t + 2047 of the features, the whole weight matrix, and the bias
  and scale as one-row matrices (each vector reshaped to one row before the region), and writes back rows 2048·t … 2048·t + 2047
  of the result. Entry (p, q) of what point t writes back is the specification's one-entry function of
  ∑ₖ feats[2048·t + p, k] · weight[k, q], bias[q] and scale[q]: that is entry (2048·t + p, q) of `G`. Row r of the result lies
  in the block of point r / 2048, so the 128 blocks cover the array, and the array after the run is `G` everywhere.
-/
import proofs.«170968_j4939212390875_1_alg».proof.Proof.Gen.KernelIdeal.Value
import proofs.«170968_j4939212390875_1_alg».proof.Proof.KernelBlock
import proofs.«170968_j4939212390875_1_alg».proof.Proof.Spec
import Idealize.ShloMosaic.Lib.Pipeline.Value
import Idealize.ShloMosaic.Lib.ValueIdx
import Idealize.ShloMosaic.Lib.StableHlo.Run

noncomputable section

open scoped BigOperators

namespace Cert.Requant.KernelValue

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The bias and scale rows as the region finds them -/

/-- The bias row the region stages is the bias vector laid out as one row: its entry (0, q) is bias[q]. -/
theorem bias_row (c : Dev nD) (q : Fin 256) :
    (V m c main_v0 : S1x256.Idx → EReal) (ix2 (0 : Fin 1) q) = ((m ((c : Thread nD τ).loc main_arg2)) : S256.Idx → EReal) (ix1 q) := by
  have e : (V m c main_v0 : S1x256.Idx → EReal) = shapeCast S1x256 (m ((c : Thread nD τ).loc main_arg2)) shapeCasts_S256_S1x256 := by
    dsimp only [V, hostOps0]; after_results; rfl
  rw [e]
  exact shapeCast_apply _ shapeCasts_S256_S1x256 (ix2 (0 : Fin 1) q) (ix1 q) (by
    rw [Shape.rowMajor_val_two, Shape.rowMajor_val_one]; show q.val = 0 * 256 + q.val; omega)

/-- The same for the scale row. -/
theorem scale_row (c : Dev nD) (q : Fin 256) :
    (V m c main_v1 : S1x256.Idx → EReal) (ix2 (0 : Fin 1) q) = ((m ((c : Thread nD τ).loc main_arg3)) : S256.Idx → EReal) (ix1 q) := by
  have e : (V m c main_v1 : S1x256.Idx → EReal) = shapeCast S1x256 (m ((c : Thread nD τ).loc main_arg3)) shapeCasts_S256_S1x256 := by
    dsimp only [V, hostOps0]; after_results; rfl
  rw [e]
  exact shapeCast_apply _ shapeCasts_S256_S1x256 (ix2 (0 : Fin 1) q) (ix1 q) (by
    rw [Shape.rowMajor_val_two, Shape.rowMajor_val_one]; show q.val = 0 * 256 + q.val; omega)

/-! ## Which block each window holds at a point -/

/-- Decided over the 128 points: the features' block moves with the result's block down the rows; the weights, the bias row
    and the scale row stay at their one block; the result's block index stays below 128 and on column block 0. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 127 ∧ win0_4.index t (1 : Fin 2) = 0 :=
  (by decide +kernel : ∀ t : Fin grid0.N, _)

/-- Every one of the 128 row blocks of the result is some point's. -/
theorem idx_onto : ∀ b : Fin 128, ∃ t : Fin cfg0.N, win0_4.index t = ![b.val, 0] :=
  (by decide +kernel : ∀ b : Fin 128, ∃ t : Fin grid0.N, win0_4.index t = ![b.val, 0])

/-! ## What a point writes back -/

/-- Point `t` writes back block `t` of `G` of the arrays as the region finds them. -/
theorem flushed_eq (c : Dev nD) (t : Fin cfg0.N) :
    (dats m 0 c).flushed 4 t = ((cfg0.win 4).blk t).view.read (Elt Ideal)
      (Cert.Requant.G (V m c main_arg0) (V m c main_arg1) (m ((c : Thread nD τ).loc main_arg2)) (m ((c : Thread nD τ).loc main_arg3))) := by
  rw [flushed4]
  unfold out0_4
  rw [View.canon_unit_zero hz]
  simp only [View.ld_unit_zero (S := S2048x256) hz, View.ld_unit_zero (S := S256x256) hz, View.ld_unit_zero (S := S1x256) hz]
  obtain ⟨e0, e1, e2, e3, e4, e5, e6, e7, e8, e9⟩ := idx_facts t
  refine funext fun (j : S2048x256.Idx) => ?_
  obtain ⟨p, q, rfl⟩ : ∃ (p : Fin 2048) (q : Fin 256), j = ix2 p q := ⟨j 0, j 1, eq_ix2 j⟩
  have hp : p.val < 2048 := p.isLt
  have hq : q.val < 256 := q.isLt
  have hn : win0_4.index t (0 : Fin 2) * 2048 + p.val < 262144 := by omega
  show k0_pay1 (F := Ideal) (iblk m c 0 t) (iblk m c 1 t) (iblk m c 2 t) (iblk m c 3 t) (ix2 p q)
    = Cert.Requant.G (V m c main_arg0) (V m c main_arg1) (m ((c : Thread nD τ).loc main_arg2)) (m ((c : Thread nD τ).loc main_arg3)) (((cfg0.win 4).blk t).view.emb (ix2 p q))
  refine (Cert.Requant.Kernel.pay_at (iblk m c 0 t) (iblk m c 1 t) (iblk m c 2 t) (iblk m c 3 t) p q).trans ?_
  have h4 : ((cfg0.win 4).blk t).view.emb (ix2 p q)
      = ix2 (⟨win0_4.index t (0 : Fin 2) * 2048 + p.val, hn⟩ : Fin 262144) q := by
    funext a; apply Fin.ext
    match a with
    | ⟨0, _⟩ => show win0_4.index t (0 : Fin 2) * 2048 + 1 * p.val = win0_4.index t (0 : Fin 2) * 2048 + p.val; omega
    | ⟨1, _⟩ => show win0_4.index t (1 : Fin 2) * 256 + 1 * q.val = q.val; omega
  rw [h4, Cert.Requant.G_apply]
  have hA : ∀ k : Fin 256, (iblk m c 0 t : S2048x256.Idx → EReal) (ix2 p k)
      = (V m c main_arg0 : S262144x256.Idx → EReal) (ix2 (⟨win0_4.index t (0 : Fin 2) * 2048 + p.val, hn⟩ : Fin 262144) k) := fun k => by
    show (V m c main_arg0 : S262144x256.Idx → EReal) (((cfg0.win 0).blk t).view.emb (ix2 p k)) = _
    refine congrArg (V m c main_arg0 : S262144x256.Idx → EReal) ?_
    funext a; apply Fin.ext
    have hk : k.val < 256 := k.isLt
    match a with
    | ⟨0, _⟩ => show win0_0.index t (0 : Fin 2) * 2048 + 1 * p.val = win0_4.index t (0 : Fin 2) * 2048 + p.val; omega
    | ⟨1, _⟩ => show win0_0.index t (1 : Fin 2) * 256 + 1 * k.val = k.val; omega
  have hB : ∀ k : Fin 256, (iblk m c 1 t : S256x256.Idx → EReal) (ix2 k q) = (V m c main_arg1 : S256x256.Idx → EReal) (ix2 k q) := fun k => by
    show (V m c main_arg1 : S256x256.Idx → EReal) (((cfg0.win 1).blk t).view.emb (ix2 k q)) = _
    refine congrArg (V m c main_arg1 : S256x256.Idx → EReal) ?_
    funext a; apply Fin.ext
    have hk : k.val < 256 := k.isLt
    match a with
    | ⟨0, _⟩ => show win0_1.index t (0 : Fin 2) * 256 + 1 * k.val = k.val; omega
    | ⟨1, _⟩ => show win0_1.index t (1 : Fin 2) * 256 + 1 * q.val = q.val; omega
  have hC : (iblk m c 2 t : S1x256.Idx → EReal) (ix2 (0 : Fin 1) q) = ((m ((c : Thread nD τ).loc main_arg2)) : S256.Idx → EReal) (ix1 q) := by
    refine Eq.trans ?_ (bias_row m c q)
    show (V m c main_v0 : S1x256.Idx → EReal) (((cfg0.win 2).blk t).view.emb (ix2 (0 : Fin 1) q)) = _
    refine congrArg (V m c main_v0 : S1x256.Idx → EReal) ?_
    funext a; apply Fin.ext
    match a with
    | ⟨0, _⟩ => show win0_2.index t (0 : Fin 2) * 1 + 1 * 0 = 0; omega
    | ⟨1, _⟩ => show win0_2.index t (1 : Fin 2) * 256 + 1 * q.val = q.val; omega
  have hD : (iblk m c 3 t : S1x256.Idx → EReal) (ix2 (0 : Fin 1) q) = ((m ((c : Thread nD τ).loc main_arg3)) : S256.Idx → EReal) (ix1 q) := by
    refine Eq.trans ?_ (scale_row m c q)
    show (V m c main_v1 : S1x256.Idx → EReal) (((cfg0.win 3).blk t).view.emb (ix2 (0 : Fin 1) q)) = _
    refine congrArg (V m c main_v1 : S1x256.Idx → EReal) ?_
    funext a; apply Fin.ext
    match a with
    | ⟨0, _⟩ => show win0_3.index t (0 : Fin 2) * 1 + 1 * 0 = 0; omega
    | ⟨1, _⟩ => show win0_3.index t (1 : Fin 2) * 256 + 1 * q.val = q.val; omega
  refine congr (congr (congrArg Cert.Requant.lane (Finset.sum_congr rfl fun k _ => ?_)) hC) hD
  rw [hA k, hB k]

/-! ## The blocks cover the array -/

/-- An index of the result is in point `t`'s block iff each coordinate is in the block's range on its axis. -/
theorem mem_blk (t : Fin cfg0.N) (i : S262144x256.Idx) :
    i ∈ ((cfg0.win 4).blk t).view.set ↔ ∀ a : Fin 2, win0_4.index t a * S2048x256.size a ≤ (i a).val
      ∧ (i a).val < win0_4.index t a * S2048x256.size a + S2048x256.size a := by
  show i ∈ ((View.whole main_v2).slice (win0_4.rect t)).set ↔ _
  rw [View.set_slice_whole, Rect.mem_set_unit]
  exact Iff.rfl

/-- Row r of the result is in the block of the point whose row block is r / 2048. -/
theorem cover (i : S262144x256.Idx) :
    ∃ t : Fin cfg0.N, (cfg0.win 4).flush t = true ∧ i ∈ ((cfg0.win 4).blk t).view.set := by
  have hi0 : (i 0).val < 262144 := (i 0).isLt
  have hi1 : (i 1).val < 256 := (i 1).isLt
  obtain ⟨t, ht⟩ := idx_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 256 ≤ (i 1).val ∧ (i 1).val < win0_4.index t (1 : Fin 2) * 256 + 256; omega

/-! ## The array after the run, and the run -/

/-- The result array after the run is `G` of the four arguments as launched. -/
theorem final (c : Dev nD) : (dats m 0 c).arrAt 4 cfg0.N
    = Cert.Requant.G (m ((c : Thread nD τ).loc main_arg0)) (m ((c : Thread nD τ).loc main_arg1)) (m ((c : Thread nD τ).loc main_arg2)) (m ((c : Thread nD τ).loc main_arg3)) := by
  have h := (dats m 0 c).arrAt_eq_of_cover 4
    (Cert.Requant.G (V m c main_arg0) (V m c main_arg1) (m ((c : Thread nD τ).loc main_arg2)) (m ((c : Thread nD τ).loc main_arg3)))
    (fun t _ => flushed_eq m c t) cover
  rw [V_main_arg0, V_main_arg1] at h
  exact h

/-- Every weakly fair execution of the kernel's program terminates with the result array at `G` of the arguments and the
    arguments unchanged. -/
theorem run : θ_run defs (onTc (τ := τ) (main (F := Ideal))) ⟨m, fun _ => 0, ρ⟩ fun r => ∀ c : Dev nD,
      r.2.mem ((c : Thread nD τ).loc main_v2) = Cert.Requant.G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Requant.KernelValue

end
-- ==== Proof.lean ====
/-
  A 1×1 convolution with a fixed-point requantisation: out = relu(clamp(((int(feats · weight) + int(bias)) · int(scale) + 128) >> 8, -128, 127)),
  for feats of 262144 × 256, weight of 256 × 256 and bias, scale of 256 entries.

  The kernel tiles the rows in 128 blocks of 2048 and, per block, multiplies by the whole weight matrix and applies the
  epilogue entry by entry; the reference multiplies the whole feature matrix and applies the same epilogue. On the extended
  reals both compute one function, `Cert.Requant.G` (Proof/Spec.lean): at (n, o) the epilogue of ∑ₖ feats[n, k] · weight[k, o],
  bias[o] and scale[o]. The two sides differ only in how the same values are spelt — a product accumulated into zero against a
  product with no accumulator, operands narrowed to a shorter float format (the identity on extended reals), a vector reshaped
  to one row and repeated down the rows against the vector broadcast along the columns, the arithmetic shift of 32-bit words on
  two different units — so no law of real arithmetic, and no finiteness of the inputs, is used.

  Proof/RefIsSpec.lean reads the reference's run back to `G`; Proof/KernelBlock.lean reads one entry of what the kernel's body
  stores; Proof/KernelValue.lean puts the 128 blocks together into the whole array. The idealised kernel is the kernel's own
  text read over the extended reals (no rewrite was applied), so that conjunct holds trivially.
-/
import proofs.«170968_j4939212390875_1_alg».proof.Defs
import proofs.«170968_j4939212390875_1_alg».proof.Proof.Gen.Kernel
import proofs.«170968_j4939212390875_1_alg».proof.Proof.Gen.Kernel.Skeleton
import proofs.«170968_j4939212390875_1_alg».proof.Proof.Gen.Kernel.Launch
import proofs.«170968_j4939212390875_1_alg».proof.Proof.Gen.Kernel.Points
import proofs.«170968_j4939212390875_1_alg».proof.Proof.Gen.Kernel.Frame
import proofs.«170968_j4939212390875_1_alg».proof.Proof.Gen.KernelIdeal
import proofs.«170968_j4939212390875_1_alg».proof.Proof.Gen.KernelIdeal.Skeleton
import proofs.«170968_j4939212390875_1_alg».proof.Proof.Gen.KernelIdeal.Launch
import proofs.«170968_j4939212390875_1_alg».proof.Proof.Gen.KernelIdeal.Points
import proofs.«170968_j4939212390875_1_alg».proof.Proof.Gen.KernelIdeal.Frame
import proofs.«170968_j4939212390875_1_alg».proof.Proof.Gen.ReferenceIdeal
import proofs.«170968_j4939212390875_1_alg».proof.Proof.Gen.Pre_finite_inputs
import proofs.«170968_j4939212390875_1_alg».proof.Proof.Gen.KernelIdeal.Value
import proofs.«170968_j4939212390875_1_alg».proof.Proof.Gen.ReferenceIdeal.Run
import proofs.«170968_j4939212390875_1_alg».proof.Proof.Gen.ReferenceIdeal.Read
import proofs.«170968_j4939212390875_1_alg».proof.Proof.Spec
import proofs.«170968_j4939212390875_1_alg».proof.Proof.RefIsSpec
import proofs.«170968_j4939212390875_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs to the end with its arguments unchanged. -/
theorem frame_kernel : Cert.frame_Kernel := fun m ρ _ => Cert.Kernel.Gen.frame m ρ

/-- So does the kernel over the extended reals. -/
theorem frame_kernelIdeal : Cert.frame_KernelIdeal := fun m ρ _ => Cert.KernelIdeal.Gen.frame m ρ

/-- The reference is a sequence of whole-array operations: it runs to the end, and its run leaves the arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read over the extended reals. -/
theorem preserves : Cert.preserves_Kernel_KernelIdeal := trivial

/-- From memories that agree on the four arguments both programs end with the result at `G` of those arguments. -/
theorem algebraic : Cert.algebraic_KernelIdeal_ReferenceIdeal := by
  intro m ρ m' ρ' _ hagree
  refine ⟨fun c => Cert.Requant.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.Requant.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.Requant.Reference.ref_eq_G,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
